-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x512 .f32) (main_arg1 : FVec F S8192x8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x512 : Shape := ⟨2, ![8192, 512]⟩
abbrev S8192x8192 : Shape := ⟨2, ![8192, 8192]⟩
abbrev S1024x1024 : Shape := ⟨2, ![1024, 1024]⟩
abbrev S1024x512 : Shape := ⟨2, ![1024, 512]⟩
abbrev S1024x1 : Shape := ⟨2, ![1024, 1]⟩
abbrev S1024 : Shape := ⟨1, ![1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x512, .bf16⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S8192x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x1, .f32⟩
  | .local _ .vmem, ⟨8, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v22 : BitVec 32 := Scalar.muli arg1 c1024_i32
  v22
def k0_off1 (i : grid0.Coords) : Fin 2 → Nat :=
  let arg1 : BitVec 32 := BitVec.ofNat 32 (i 1).val
  let c1024_i32 : BitVec 32 := 1024#32
  let v22 : BitVec 32 := Scalar.muli arg1 c1024_i32
  let v23 : BitVec 32 := v22
  let v24 : Index := Scalar.indexCast v23
  let c0_12 : Index := 0#32
  ![v24.toNat, 0]
def k0_cond2 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_23 : BitVec 32 := 0#32
  let v43 : BitVec 1 := Scalar.cmpi .ne v42 c0_i32_23
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  natLt_1_32 : 1 < 32
  reduces_S1024x1024_S1024 : S1024x1024.Reduces [1] S1024
  shapeCasts_S1024_S1024x1 : S1024.ShapeCasts S1024x1
  broadcasts_S1024x1_S1024x512 : S1024x1.Broadcasts S1024x512
  dot_S1024x1024_S1024x512_S1024x512_1_0_0_1_n_n_wf : DotDims.WF S1024x1024 S1024x512 S1024x512 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S_, .f32⟩
  | .hbm, ⟨3, _⟩ => ⟨S8192x8192, .f32⟩
  | .hbm, ⟨4, _⟩ => ⟨S8192x8192, .i1⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x512, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x512, .f32⟩
  | .hbm, ⟨22, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S8192x1_S8192x512_0_1 : S8192x1.BroadcastsInDim S8192x512 (![0, 1] : Fin 2 → Fin S8192x512.rank)
  dot_S8192x8192_S8192x512_S8192x512_1_0_0_1_n_n_wf : DotDims.WF S8192x8192 S8192x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Pieces.lean ====
/-
  What one grid point of the kernel leaves behind, as pure terms of what it loads.

  The body keeps four running quantities for a block of 1024 rows: the product of the row block with the second
  operand, the product of the row block's positive-entry indicator with it, the count of positive entries per
  row, and the row sums. A point whose second coordinate is 0 first stores zeros; every point then adds its own
  1024 columns' contribution; a point whose second coordinate is 7 finally stores the output block, a quotient
  of the four. Each lemma reads one of these stores back as the body's arithmetic applied to the point's loads.
-/
import proofs.«159643_j59227599012106_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The 1024 rows of the second operand that a grid point's body reads: rows `1024·k … 1024·k + 1023` of the whole
    staged array, `k` the point's second coordinate. -/
abbrev curRows (i : grid0.Coords) (x1 : Vec F S8192x512 .bf16) : Vec F S1024x512 .bf16 :=
  View.ld x1 (Rect.unit (s := S8192x512) (k0_off1 i) S1024x512.size (k0_off1_inb i))

/-- Scratch 0 after a point of case A: the running product of the row block with the operand's rows, started from the zero the point has just stored. -/
theorem sc0_A (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x1024 .f32) (x1 : Vec F S8192x512 .bf16) :
    sout0_A_0 c i arg2 harg2 arg3 harg3 arg4 harg4 arg5 harg5 arg6 harg6 arg7 harg7 arg8 harg8 hc0 hc1 x0 x1 = k0_pay1 (k0_pay13 x0 (curRows i x1) k0_pay4) := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x512) hz, View.readCov_unit_zero (S := S1024x512) _ hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]
  rfl

/-- Scratch 1 after a point of case A: the running product of the row block's indicator with the operand's rows, started from the zero the point has just stored. -/
theorem sc1_A (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x1024 .f32) (x1 : Vec F S8192x512 .bf16) :
    sout0_A_1 c i arg2 harg2 arg3 harg3 arg4 harg4 arg5 harg5 arg6 harg6 arg7 harg7 arg8 harg8 hc0 hc1 x0 x1 = k0_pay2 (k0_pay11 (curRows i x1)) (k0_pay12 x0) k0_pay5 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x512) hz, View.readCov_unit_zero (S := S1024x512) _ hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]
  rfl

/-- Scratch 2 after a point of case A: the running count of positive entries per row, started from the zero the point has just stored. -/
theorem sc2_A (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x1024 .f32) (x1 : Vec F S8192x512 .bf16) :
    sout0_A_2 c i arg2 harg2 arg3 harg3 arg4 harg4 arg5 harg5 arg6 harg6 arg7 harg7 arg8 harg8 hc0 hc1 x0 x1 = k0_pay9 x0 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]

/-- Scratch 3 after a point of case A: the running row sums, started from the zero the point has just stored. -/
theorem sc3_A (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x1024 .f32) (x1 : Vec F S8192x512 .bf16) :
    sout0_A_3 c i arg2 harg2 arg3 harg3 arg4 harg4 arg5 harg5 arg6 harg6 arg7 harg7 arg8 harg8 hc0 hc1 x0 x1 = k0_pay10 x0 k0_pay7 := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]

/-- Scratch 0 after a point of case B: the running product of the row block with the operand's rows, over what the point before left. -/
theorem sc0_B (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x1024 .f32) (x1 : Vec F S8192x512 .bf16) (xs0 : Vec F S1024x512 .f32) (xs1 : Vec F S1024x512 .f32) (xs2 : Vec F S1024x1 .f32) (xs3 : Vec F S1024x1 .f32) :
    sout0_B_0 c i arg2 harg2 arg3 harg3 arg4 harg4 arg5 harg5 arg6 harg6 arg7 harg7 arg8 harg8 hc0 hc1 x0 x1 xs0 xs1 xs2 xs3 = k0_pay1 (k0_pay13 x0 (curRows i x1) xs0) := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]
  rfl

/-- Scratch 1 after a point of case B: the running product of the row block's indicator with the operand's rows, over what the point before left. -/
theorem sc1_B (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x1024 .f32) (x1 : Vec F S8192x512 .bf16) (xs0 : Vec F S1024x512 .f32) (xs1 : Vec F S1024x512 .f32) (xs2 : Vec F S1024x1 .f32) (xs3 : Vec F S1024x1 .f32) :
    sout0_B_1 c i arg2 harg2 arg3 harg3 arg4 harg4 arg5 harg5 arg6 harg6 arg7 harg7 arg8 harg8 hc0 hc1 x0 x1 xs0 xs1 xs2 xs3 = k0_pay2 (k0_pay11 (curRows i x1)) (k0_pay12 x0) xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]
  rfl

/-- Scratch 2 after a point of case B: the running count of positive entries per row, over what the point before left. -/
theorem sc2_B (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x1024 .f32) (x1 : Vec F S8192x512 .bf16) (xs0 : Vec F S1024x512 .f32) (xs1 : Vec F S1024x512 .f32) (xs2 : Vec F S1024x1 .f32) (xs3 : Vec F S1024x1 .f32) :
    sout0_B_2 c i arg2 harg2 arg3 harg3 arg4 harg4 arg5 harg5 arg6 harg6 arg7 harg7 arg8 harg8 hc0 hc1 x0 x1 xs0 xs1 xs2 xs3 = k0_pay9 x0 xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]

/-- Scratch 3 after a point of case B: the running row sums, over what the point before left. -/
theorem sc3_B (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x1024 .f32) (x1 : Vec F S8192x512 .bf16) (xs0 : Vec F S1024x512 .f32) (xs1 : Vec F S1024x512 .f32) (xs2 : Vec F S1024x1 .f32) (xs3 : Vec F S1024x1 .f32) :
    sout0_B_3 c i arg2 harg2 arg3 harg3 arg4 harg4 arg5 harg5 arg6 harg6 arg7 harg7 arg8 harg8 hc0 hc1 x0 x1 xs0 xs1 xs2 xs3 = k0_pay10 x0 xs3 := by
  unfold sout0_B_3
  rw [View.read_writes_eq_canon _ _ _ (scover0_B_3 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]

/-- Scratch 0 after a point of case C: the running product of the row block with the operand's rows, over what the point before left. -/
theorem sc0_C (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x1024 .f32) (x1 : Vec F S8192x512 .bf16) (xs0 : Vec F S1024x512 .f32) (xs1 : Vec F S1024x512 .f32) (xs2 : Vec F S1024x1 .f32) (xs3 : Vec F S1024x1 .f32) :
    sout0_C_0 c i arg2 harg2 arg3 harg3 arg4 harg4 arg5 harg5 arg6 harg6 arg7 harg7 arg8 harg8 hc0 hc1 x0 x1 xs0 xs1 xs2 xs3 = k0_pay1 (k0_pay13 x0 (curRows i x1) xs0) := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]
  rfl

/-- Scratch 1 after a point of case C: the running product of the row block's indicator with the operand's rows, over what the point before left. -/
theorem sc1_C (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x1024 .f32) (x1 : Vec F S8192x512 .bf16) (xs0 : Vec F S1024x512 .f32) (xs1 : Vec F S1024x512 .f32) (xs2 : Vec F S1024x1 .f32) (xs3 : Vec F S1024x1 .f32) :
    sout0_C_1 c i arg2 harg2 arg3 harg3 arg4 harg4 arg5 harg5 arg6 harg6 arg7 harg7 arg8 harg8 hc0 hc1 x0 x1 xs0 xs1 xs2 xs3 = k0_pay2 (k0_pay11 (curRows i x1)) (k0_pay12 x0) xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]
  rfl

/-- Scratch 2 after a point of case C: the running count of positive entries per row, over what the point before left. -/
theorem sc2_C (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x1024 .f32) (x1 : Vec F S8192x512 .bf16) (xs0 : Vec F S1024x512 .f32) (xs1 : Vec F S1024x512 .f32) (xs2 : Vec F S1024x1 .f32) (xs3 : Vec F S1024x1 .f32) :
    sout0_C_2 c i arg2 harg2 arg3 harg3 arg4 harg4 arg5 harg5 arg6 harg6 arg7 harg7 arg8 harg8 hc0 hc1 x0 x1 xs0 xs1 xs2 xs3 = k0_pay9 x0 xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]

/-- Scratch 3 after a point of case C: the running row sums, over what the point before left. -/
theorem sc3_C (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x1024 .f32) (x1 : Vec F S8192x512 .bf16) (xs0 : Vec F S1024x512 .f32) (xs1 : Vec F S1024x512 .f32) (xs2 : Vec F S1024x1 .f32) (xs3 : Vec F S1024x1 .f32) :
    sout0_C_3 c i arg2 harg2 arg3 harg3 arg4 harg4 arg5 harg5 arg6 harg6 arg7 harg7 arg8 harg8 hc0 hc1 x0 x1 xs0 xs1 xs2 xs3 = k0_pay10 x0 xs3 := by
  unfold sout0_C_3
  rw [View.read_writes_eq_canon _ _ _ (scover0_C_3 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]

/-- The output block a point of case C stores: the final quotient of the four scratch contents the point has just
    brought up to date. -/
theorem out_C (c : Dev nD) (i : grid0.Coords) (arg2 : Memref sig .tc .vmem S1024x1024 .f32) (harg2 : arg2.IsWhole) (arg3 : Memref sig .tc .vmem S8192x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x1024 .f32) (x1 : Vec F S8192x512 .bf16) (xs0 : Vec F S1024x512 .f32) (xs1 : Vec F S1024x512 .f32) (xs2 : Vec F S1024x1 .f32) (xs3 : Vec F S1024x1 .f32) :
    out0_C_2 c i arg2 harg2 arg3 harg3 arg4 harg4 arg5 harg5 arg6 harg6 arg7 harg7 arg8 harg8 hc0 hc1 x0 x1 xs0 xs1 xs2 xs3
      = k0_pay3 (k0_pay9 x0 xs2) (k0_pay10 x0 xs3) (k0_pay1 (k0_pay13 x0 (curRows i x1) xs0)) (k0_pay2 (k0_pay11 (curRows i x1)) (k0_pay12 x0) xs1) := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz]
  simp only [View.readAt_eq_ld, harg2.read_unread, harg3.read_unread, harg5.read_unread, harg6.read_unread, harg7.read_unread, harg8.read_unread, View.ld_unit_zero (S := S1024x1024) hz, View.ld_unit_zero (S := S1024x512) hz, View.ld_unit_zero (S := S1024x1) hz, View.readCov_unit_zero (S := S1024x512) _ hz, View.readCov_unit_zero (S := S1024x1) _ hz]
  rfl

end Cert.KernelIdeal.Pieces

end
-- ==== Proof.Runs.lean ====
/-
  The four running quantities after the last point of a run of eight, and the block that point stores.

  Along the grid's second axis a row block's eight points form a run: the first stores zeros and adds its own
  contribution, each later one adds its own to what the point before left. So after the run's last point each
  running quantity is zero plus the eight contributions, and the stored block is the final quotient of the four.
-/
import proofs.«159643_j59227599012106_1_alg».proof.Proof.Pieces
import proofs.«159643_j59227599012106_1_alg».proof.Proof.Gen.KernelIdeal.Value

noncomputable section

open Idealize.ShloMosaic Idealize.ShloMosaic.TcCoe Idealize.SL.Sem

namespace Cert.KernelIdeal.Runs

open Cert.KernelIdeal Cert.KernelIdeal.Gen Cert.KernelIdeal.Pieces

variable {F : FTy → Type} [FloatOps F]
variable (m : (ℓ : Loc nD τ sig) → Buf (Elt F) ℓ)

/-- The square argument's block at point `n`. -/
abbrev sqAt (c : Dev nD) (n : ℕ) (h : n < cfg0.N) : Vec F S1024x1024 .f32 := iblk m c 0 ⟨n, h⟩

/-- The rows of the second operand the body reads at point `n`. -/
abbrev rowsAt (c : Dev nD) (n : ℕ) (h : n < cfg0.N) : Vec F S1024x512 .bf16 :=
  curRows (grid0.coords ⟨n, h⟩) (iblk m c 1 ⟨n, h⟩)

/-- What point `n` leaves in scratch 0 over `acc`: the product of the row block with the operand's rows, added to `acc`, or to zero at the first point
    of a run of eight. -/
theorem step0 (c : Dev nD) (n : ℕ) (hb : n < cfg0.N) (acc : Vec F S1024x512 .f32) :
    Value.scAt0_0 m c n hb acc = k0_pay1 (k0_pay13 (sqAt m c n hb) (rowsAt m c n hb) (if n % 8 = 0 then k0_pay4 else acc)) := by
  unfold Value.scAt0_0
  by_cases h0 : n % 8 = 0
  · have h1 : ¬n % 8 = 7 := by omega
    rw [dif_pos h0, dif_neg h1, if_pos h0]
    exact sc0_A c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩)
  · rw [dif_neg h0, if_neg h0]
    by_cases h1 : n % 8 = 7
    · rw [dif_pos h1]
      exact sc0_C c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩) acc _ _ _
    · rw [dif_neg h1]
      exact sc0_B c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩) acc _ _ _

/-- What point `n` leaves in scratch 1 over `acc`: the product of the row block's indicator with the operand's rows, added to `acc`, or to zero at the first point
    of a run of eight. -/
theorem step1 (c : Dev nD) (n : ℕ) (hb : n < cfg0.N) (acc : Vec F S1024x512 .f32) :
    Value.scAt0_1 m c n hb acc = k0_pay2 (k0_pay11 (rowsAt m c n hb)) (k0_pay12 (sqAt m c n hb)) (if n % 8 = 0 then k0_pay5 else acc) := by
  unfold Value.scAt0_1
  by_cases h0 : n % 8 = 0
  · have h1 : ¬n % 8 = 7 := by omega
    rw [dif_pos h0, dif_neg h1, if_pos h0]
    exact sc1_A c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩)
  · rw [dif_neg h0, if_neg h0]
    by_cases h1 : n % 8 = 7
    · rw [dif_pos h1]
      exact sc1_C c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩) _ acc _ _
    · rw [dif_neg h1]
      exact sc1_B c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩) _ acc _ _

/-- What point `n` leaves in scratch 2 over `acc`: the count of positive entries per row, added to `acc`, or to zero at the first point
    of a run of eight. -/
theorem step2 (c : Dev nD) (n : ℕ) (hb : n < cfg0.N) (acc : Vec F S1024x1 .f32) :
    Value.scAt0_2 m c n hb acc = k0_pay9 (sqAt m c n hb) (if n % 8 = 0 then k0_pay6 else acc) := by
  unfold Value.scAt0_2
  by_cases h0 : n % 8 = 0
  · have h1 : ¬n % 8 = 7 := by omega
    rw [dif_pos h0, dif_neg h1, if_pos h0]
    exact sc2_A c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩)
  · rw [dif_neg h0, if_neg h0]
    by_cases h1 : n % 8 = 7
    · rw [dif_pos h1]
      exact sc2_C c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩) _ _ acc _
    · rw [dif_neg h1]
      exact sc2_B c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩) _ _ acc _

/-- What point `n` leaves in scratch 3 over `acc`: the row sums, added to `acc`, or to zero at the first point
    of a run of eight. -/
theorem step3 (c : Dev nD) (n : ℕ) (hb : n < cfg0.N) (acc : Vec F S1024x1 .f32) :
    Value.scAt0_3 m c n hb acc = k0_pay10 (sqAt m c n hb) (if n % 8 = 0 then k0_pay7 else acc) := by
  unfold Value.scAt0_3
  by_cases h0 : n % 8 = 0
  · have h1 : ¬n % 8 = 7 := by omega
    rw [dif_pos h0, dif_neg h1, if_pos h0]
    exact sc3_A c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩)
  · rw [dif_neg h0, if_neg h0]
    by_cases h1 : n % 8 = 7
    · rw [dif_pos h1]
      exact sc3_C c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩) _ _ _ acc
    · rw [dif_neg h1]
      exact sc3_B c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) scM0_0 (Memref.isWhole_whole _) scM0_1 (Memref.isWhole_whole _) scM0_2 (Memref.isWhole_whole _) scM0_3 (Memref.isWhole_whole _) _ _ (iblk m c 0 ⟨n, hb⟩) (iblk m c 1 ⟨n, hb⟩) _ _ _ acc

/-- The output block the last point of a run stores is the final quotient of the four scratch contents after that
    point. -/
theorem out_last (c : Dev nD) (t : Fin cfg0.N) (h0 : ¬t.val % 8 = 0) (h7 : t.val % 8 = 7) :
    (outsAt0 m c t.val t.isLt).1
      = k0_pay3 (outsAt0 m c t.val t.isLt).2.2.2.1 (outsAt0 m c t.val t.isLt).2.2.2.2 (outsAt0 m c t.val t.isLt).2.1
          (outsAt0 m c t.val t.isLt).2.2.1 := by
  rw [outsAt0_C m c t h0 h7]
  dsimp only
  rw [out_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sc0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sc1_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sc2_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sc3_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

end Cert.KernelIdeal.Runs

end
-- ==== Proof.Blocks.lean ====
/-
  What a grid point's loads hold, element by element, in terms of the two argument arrays.

  Point `t` of the 8 × 8 grid has coordinates `(t / 8, t % 8)`. Its block of the 8192 × 8192 argument is rows
  `1024·(t / 8) …` and columns `1024·(t % 8) …`; the second operand is staged whole, and the body reads its rows
  `1024·(t % 8) …`. The second operand is the 8192 × 512 argument after a change of float format, which over the
  extended reals changes nothing.
-/
import proofs.«159643_j59227599012106_1_alg».proof.Proof.Pieces
import Idealize.ShloMosaic.Lib.ValueIdx
import Idealize.ShloMosaic.Lib.StableHlo.Run

noncomputable section

open Idealize.ShloMosaic Idealize.ShloMosaic.TcCoe Idealize.SL.Sem
open Idealize.ShloMosaic.ValueIdx

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-- The first window's block index at point `t` is `(t / 8, t % 8)`. -/
theorem index0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)

/-- The second window's block index is always `(0, 0)`: the whole array. -/
theorem index1 : ∀ t : Fin cfg0.N, win0_1.index t 0 = 0 ∧ win0_1.index t 1 = 0 :=
  (by decide +kernel : ∀ t : Fin grid0.N, win0_1.index t 0 = 0 ∧ win0_1.index t 1 = 0)

/-- The rows of the second operand the body reads at point `t` start at `1024·(t % 8)`, the columns at 0. -/
theorem rowStart : ∀ t : Fin cfg0.N, k0_off1 (grid0.coords t) 0 = 1024 * (t.val % 8) ∧ k0_off1 (grid0.coords t) 1 = 0 :=
  (by decide +kernel : ∀ t : Fin grid0.N, k0_off1 (grid0.coords t) 0 = 1024 * (t.val % 8) ∧ k0_off1 (grid0.coords t) 1 = 0)

/-- The square argument's block at point `t`, at local `(p, l)`. -/
theorem sqBlock_apply (c : Dev nD) (t : Fin cfg0.N) (p l : Fin 1024) (P L : Fin 8192)
    (hP : P.val = 1024 * (t.val / 8) + p.val) (hL : L.val = 1024 * (t.val % 8) + l.val) :
    (iblk m c 0 t : Vec F S1024x1024 .f32) (ix2 p l) = m ((c : Thread nD τ).loc main_arg1) (ix2 P L) := by
  have hi := index0 t
  unfold iblk
  rw [View.read_apply]
  show V m c main_arg1 _ = m (c.tc.loc main_arg1) _
  rw [V_main_arg1]
  congr 1
  funext a
  apply Fin.ext
  match a with
  | ⟨0, _⟩ => show win0_0.index t 0 * 1024 + 1 * p.val = P.val; rw [hi.1, hP]; omega
  | ⟨1, _⟩ => show win0_0.index t 1 * 1024 + 1 * l.val = L.val; rw [hi.2, hL]; omega

/-- The staged second operand is the whole array the region finds. -/
theorem tallBlock_eq (c : Dev nD) (t : Fin cfg0.N) :
    (iblk m c 1 t : Vec F S8192x512 .bf16) = V m c main_v0 := by
  have hi := index1 t
  funext j
  unfold iblk
  rw [View.read_apply]
  show V m c main_v0 _ = V m c main_v0 j
  congr 1
  funext a
  apply Fin.ext
  match a with
  | ⟨0, _⟩ => show win0_1.index t 0 * 8192 + 1 * (j 0).val = (j 0).val; rw [hi.1]; omega
  | ⟨1, _⟩ => show win0_1.index t 1 * 512 + 1 * (j 1).val = (j 1).val; rw [hi.2]; omega

/-- The rows the body reads at point `t`, at local `(l, q)`. -/
theorem curRows_apply (t : Fin cfg0.N) (w : Vec F S8192x512 .bf16) (l : Fin 1024) (q : Fin 512) (L : Fin 8192)
    (hL : L.val = 1024 * (t.val % 8) + l.val) :
    curRows (grid0.coords t) w (ix2 l q) = w (ix2 L q) := by
  have ho := rowStart t
  show w _ = w _
  congr 1
  funext a
  apply Fin.ext
  match a with
  | ⟨0, _⟩ => show k0_off1 (grid0.coords t) 0 + 1 * l.val = L.val; rw [ho.1, hL]; omega
  | ⟨1, _⟩ => show k0_off1 (grid0.coords t) 1 + 1 * q.val = q.val; rw [ho.2]; omega

end Cert.KernelIdeal.Blocks

namespace Cert.KernelIdeal.Blocks

open Cert.KernelIdeal Cert.KernelIdeal.Gen

/-- Over the extended reals the second operand the region finds is the tall argument itself: the change of
    float format before the region is the identity. -/
theorem tall_eq (m : (ℓ : Loc nD τ sig) → Buf (Elt Ideal) ℓ) (c : Dev nD) (i : S8192x512.Idx) :
    (V m c main_v0 : Vec Ideal S8192x512 .bf16) i = m ((c : Thread nD τ).loc main_arg0) i := by
  have e : (V m c main_v0 : S8192x512.Idx → EReal)
      = truncf (F := Ideal) .bf16 (m ((c : Thread nD τ).loc main_arg0)) bitsLt_bf16_f32 := by
    dsimp only [Gen.V, Gen.hostOps0]; after_results
  rw [e]; rfl

end Cert.KernelIdeal.Blocks

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.RowNorm.lean ====
/-
  Finite sums of reals read inside the extended reals; a sum over 8192 positions cut into eight runs of 1024
  consecutive positions; the indicator of a positive entry; and the two identities by which a row's normalised
  indicator, added to the row before a contraction or a row sum, may instead be contracted or summed by itself
  and added afterwards, scaled by the reciprocal of the row's norm.
-/
import Idealize.ShloMosaic.PureOps.Ideal

open scoped BigOperators

noncomputable section

namespace Cert.RowNorm

open Idealize.ShloMosaic

/-- A finite sum of reals, each read as an extended real, is the real sum read as an extended real. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The indicator of a positive real. -/
def posR (x : ℝ) : ℝ := if 0 < x then 1 else 0

/-- The indicator of a positive extended real. -/
def pos (x : EReal) : EReal := if 0 < x then 1 else 0

theorem pos_coe (x : ℝ) : pos (x : EReal) = ((posR x : ℝ) : EReal) := by
  unfold pos posR
  by_cases h : 0 < x
  · rw [if_pos h, if_pos (by exact_mod_cast h)]; rfl
  · rw [if_neg h, if_neg (by exact_mod_cast h)]; rfl

/-- An indicator is its own square. -/
theorem posR_mul_self (x : ℝ) : posR x * posR x = posR x := by
  unfold posR; split_ifs <;> simp

theorem posR_nonneg (x : ℝ) : 0 ≤ posR x := by
  unfold posR; split_ifs <;> simp

/-- A sum over 8192 positions is the sum, over eight runs, of each run's 1024 consecutive positions. -/
theorem sum_cut {β : Type*} [AddCommMonoid β] (g : Fin 8192 → β) :
    ∑ k : Fin 8192, g k = ∑ s : Fin 8, ∑ l : Fin 1024, g ⟨1024 * s.val + l.val, by omega⟩ := by
  rw [← Equiv.sum_comp (finProdFinEquiv (m := 8) (n := 1024)) g, Fintype.sum_prod_type]
  refine Finset.sum_congr rfl fun s _ => Finset.sum_congr rfl fun l _ => ?_
  congr 1
  apply Fin.ext
  show l.val + 1024 * s.val = 1024 * s.val + l.val
  omega

/-- A row plus a scaled weight row, contracted against a column: the row's contraction plus the weight row's
    contraction, scaled. -/
theorem contract_add_scaled {ι : Type*} [Fintype ι] (a w c : ι → ℝ) (r : ℝ) :
    ∑ k, (a k + w k * r) * c k = (∑ k, a k * c k) + (∑ k, w k * c k) * r := by
  simp only [add_mul, Finset.sum_add_distrib, Finset.sum_mul]
  congr 1
  exact Finset.sum_congr rfl fun k _ => by ring

/-- A row plus a scaled weight row, summed: the row's sum plus the weight row's sum, scaled. -/
theorem sum_add_scaled {ι : Type*} [Fintype ι] (a w : ι → ℝ) (r : ℝ) :
    ∑ k, (a k + w k * r) = (∑ k, a k) + (∑ k, w k) * r := by
  simp only [Finset.sum_add_distrib, Finset.sum_mul]

end Cert.RowNorm

end
-- ==== Proof.Spec.lean ====
/-
  The two ways the result is spelled, as functions of the two argument arrays over the extended reals.

  Row `p` of the 8192 × 8192 array `a` has the indicator row `pos (a p k)`; the row's norm is the square root of
  the number of its positive entries, clamped below by a small positive constant. One spelling (`viaRow`) adds
  the indicator row, divided by the norm, to the row itself, contracts the sum against the columns of the
  8192 × 512 array `x`, and divides by the sum of the same row. The other (`viaParts`) contracts the row and
  the indicator row separately, each over eight runs of 1024 positions, scales the second contraction by the
  norm's reciprocal, and divides by the row sum plus the count scaled the same way.
-/
import proofs.«159643_j59227599012106_1_alg».proof.Proof.RowNorm
import Idealize.ShloMosaic.Lib.ValueIdx

open scoped BigOperators

noncomputable section

namespace Cert.RowNorm

open Idealize.ShloMosaic Idealize.ShloMosaic.ValueIdx

/-- The 8192 × 8192 argument, the 8192 × 512 argument, and the 8192 × 512 result, as extended reals. -/
abbrev Sq : Type := (⟨2, ![8192, 8192]⟩ : Shape).Idx → EReal
abbrev Tall : Type := (⟨2, ![8192, 512]⟩ : Shape).Idx → EReal

/-- The clamp under the norm: the float nearest 1e-12, a positive real. -/
def tiny : EReal := Ideal.ofBits .f32 0x2B8CBCCC#32

/-! ### Adding the normalised indicator row first -/

/-- The squared length of row `p`'s indicator row. -/
def rowSq (a : Sq) (p : Fin 8192) : EReal := 0 + ∑ k : Fin 8192, pos (a (ix2 p k)) * pos (a (ix2 p k))

/-- Its clamped norm. -/
def rowNorm (a : Sq) (p : Fin 8192) : EReal := max (Ideal.sqrt (rowSq a p)) tiny

/-- Row `p` plus its normalised indicator row, at position `k`. -/
def rowPlus (a : Sq) (p k : Fin 8192) : EReal := a (ix2 p k) + Ideal.div (pos (a (ix2 p k))) (rowNorm a p)

/-- That row contracted against column `q` of `x`. -/
def rowDot (x : Tall) (a : Sq) (p : Fin 8192) (q : Fin 512) : EReal := ∑ k : Fin 8192, rowPlus a p k * x (ix2 k q)

/-- That row summed. -/
def rowTotal (a : Sq) (p : Fin 8192) : EReal := 0 + ∑ k : Fin 8192, rowPlus a p k

/-- The quotient. -/
def viaRow (x : Tall) (a : Sq) : Tall := fun i => Ideal.div (rowDot x a (i 0) (i 1)) (rowTotal a (i 0))

/-! ### Contracting the row and its indicator separately, run by run -/

/-- A sum over 8192 positions taken as eight runs of 1024, from zero. -/
def byRuns (f : Fin 8192 → EReal) : EReal :=
  0 + ∑ s : Fin 8, ∑ l : Fin 1024, f ⟨1024 * s.val + l.val, by omega⟩

/-- The number of positive entries of row `p`. -/
def count (a : Sq) (p : Fin 8192) : EReal := byRuns fun k => pos (a (ix2 p k))

/-- The sum of row `p`. -/
def total (a : Sq) (p : Fin 8192) : EReal := byRuns fun k => a (ix2 p k)

/-- Row `p` against column `q`. -/
def dotRow (x : Tall) (a : Sq) (p : Fin 8192) (q : Fin 512) : EReal := byRuns fun k => a (ix2 p k) * x (ix2 k q)

/-- Row `p`'s indicator against column `q`. -/
def dotPos (x : Tall) (a : Sq) (p : Fin 8192) (q : Fin 512) : EReal := byRuns fun k => pos (a (ix2 p k)) * x (ix2 k q)

/-- The reciprocal of row `p`'s clamped norm. -/
def invNorm (a : Sq) (p : Fin 8192) : EReal := Ideal.div 1 (max (Ideal.sqrt (count a p)) tiny)

/-- The quotient. -/
def viaParts (x : Tall) (a : Sq) : Tall := fun i =>
  Ideal.div (dotRow x a (i 0) (i 1) + dotPos x a (i 0) (i 1) * invNorm a (i 0))
    (total a (i 0) + count a (i 0) * invNorm a (i 0))

end Cert.RowNorm

end
-- ==== Proof.Steps.lean ====
/-
  The kernel body's pure values read at one index, over the extended reals.

  The indicator of a positive entry is `pos`; the four initial values are zero; a product step adds to the accumulator
  at `(p, q)` the sum over the 1024 positions `l` of `x (p, l) · c (l, q)` (for the row itself and for its indicator
  row); a count or total step adds to the column accumulator at `p` the sum over `l` of the indicator or of the entry;
  and the final value is the quotient of `da + db · r` by `tt + cn · r`, `r` the reciprocal of the clamped square root
  of the count.
-/
import proofs.«159643_j59227599012106_1_alg».proof.Proof.Gen.KernelIdeal.Skeleton
import proofs.«159643_j59227599012106_1_alg».proof.Proof.LibPlainDot
import proofs.«159643_j59227599012106_1_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Steps

open Cert.KernelIdeal Cert.KernelIdeal.Gen Cert.RowNorm Idealize.ShloMosaic Idealize.ShloMosaic.ValueIdx

/-! ### Two layout readings at a trailing unit axis -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of a 1024 × 1024 array, at row `p`. -/
theorem laneSum_apply (x : FVec Ideal S1024x1024 .f32) (hφ : FKind.Formats .f32)
    (hacc : (0x00000000#32 : BitVec 32) = FKind.add.neutral .f32 hφ) (p : Fin 1024) :
    multiReduction (F := Ideal) .add [1] S1024 x 0x00000000#32 reduces_S1024x1024_S1024 hφ hacc (ix1 p)
      = ∑ l : Fin 1024, x (ix2 p l) := by
  refine (Ideal.multiReduction_add_single x _ reduces_S1024x1024_S1024 hφ hacc (ix1 p)).trans ?_
  refine Finset.sum_congr rfl fun l _ => congrArg x ?_
  funext c
  match c with
  | ⟨0, _⟩ => exact Fin.ext rfl
  | ⟨1, _⟩ => exact Fin.ext rfl

/-! ### The literal words -/

theorem one_f32 : Ideal.ofBits .f32 0x3F800000#32 = 1 := by
  simp [Ideal.ofBits, Ideal.ieee, -EReal.coe_mul]; norm_num

/-! ### The payloads -/

theorem indicator_apply (x : Vec Ideal S1024x1024 .f32) (p l : Fin 1024) :
    k0_pay8 (F := Ideal) x (ix2 p l) = pos (x (ix2 p l)) := by
  unfold k0_pay8
  simp only [sitofp_apply, extui_apply, cmpf_apply, broadcast_apply]
  show (((BitVec.setWidth 32 (BitVec.ofBool (decide (Ideal.ofBits .f32 0x00000000#32 < x (ix2 p l))))).toInt : ℝ) : EReal) = _
  rw [Ideal.ofBits_zero_f32]
  unfold pos
  by_cases h : (0 : EReal) < x (ix2 p l)
  · rw [if_pos h, decide_eq_true h]
    have e : (BitVec.setWidth 32 (BitVec.ofBool true)).toInt = 1 := by decide
    rw [e, Int.cast_one, EReal.coe_one]
  · rw [if_neg h, decide_eq_false h]
    have e : (BitVec.setWidth 32 (BitVec.ofBool false)).toInt = 0 := by decide
    rw [e, Int.cast_zero, EReal.coe_zero]

theorem zeroA_apply (i : S1024x512.Idx) : k0_pay4 (F := Ideal) i = 0 := by
  unfold k0_pay4
  rw [shapeCast_self]
  exact Ideal.ofBits_zero_f32

theorem zeroB_apply (i : S1024x512.Idx) : k0_pay5 (F := Ideal) i = 0 := by
  unfold k0_pay5
  rw [shapeCast_self]
  exact Ideal.ofBits_zero_f32

theorem zeroC_apply (i : S1024x1.Idx) : k0_pay6 (F := Ideal) i = 0 := by
  unfold k0_pay6
  rw [shapeCast_self]
  exact Ideal.ofBits_zero_f32

theorem zeroD_apply (i : S1024x1.Idx) : k0_pay7 (F := Ideal) i = 0 := by
  unfold k0_pay7
  rw [shapeCast_self]
  exact Ideal.ofBits_zero_f32

theorem stepDot_apply (x : Vec Ideal S1024x1024 .f32) (cb : Vec Ideal S1024x512 .bf16) (acc : Vec Ideal S1024x512 .f32)
    (p : Fin 1024) (q : Fin 512) :
    k0_pay1 (F := Ideal) (k0_pay13 x cb acc) (ix2 p q) = acc (ix2 p q) + ∑ l : Fin 1024, x (ix2 p l) * cb (ix2 l q) := by
  unfold k0_pay1 k0_pay13 k0_pay11
  rw [shapeCast_self, shapeCast_self, addf_apply]
  rw [PlainDot.matmul_zero_apply (K := 1024) dot_S1024x1024_S1024x512_S1024x512_1_0_0_1_n_n rfl rfl rfl rfl rfl rfl
    (by decide) (by decide)]
  rfl

theorem stepPos_apply (x : Vec Ideal S1024x1024 .f32) (cb : Vec Ideal S1024x512 .bf16) (acc : Vec Ideal S1024x512 .f32)
    (p : Fin 1024) (q : Fin 512) :
    k0_pay2 (F := Ideal) (k0_pay11 cb) (k0_pay12 x) acc (ix2 p q)
      = acc (ix2 p q) + ∑ l : Fin 1024, pos (x (ix2 p l)) * cb (ix2 l q) := by
  unfold k0_pay2 k0_pay11 k0_pay12
  rw [shapeCast_self, shapeCast_self, addf_apply]
  rw [PlainDot.matmul_zero_apply (K := 1024) dot_S1024x1024_S1024x512_S1024x512_1_0_0_1_n_n rfl rfl rfl rfl rfl rfl
    (by decide) (by decide)]
  refine congrArg (acc (ix2 p q) + ·) (Finset.sum_congr rfl fun l _ => ?_)
  rw [truncf_apply, indicator_apply]

theorem stepCount_apply (x : Vec Ideal S1024x1024 .f32) (acc : Vec Ideal S1024x1 .f32) (p : Fin 1024) :
    k0_pay9 (F := Ideal) x acc (ix2 p 0) = acc (ix2 p 0) + ∑ l : Fin 1024, pos (x (ix2 p l)) := by
  unfold k0_pay9
  rw [shapeCast_self, addf_apply, shapeCast_a_a1_apply]
  refine congrArg (acc (ix2 p 0) + ·) ?_
  exact (laneSum_apply (k0_pay8 x) _ _ p).trans (Finset.sum_congr rfl fun l _ => indicator_apply x p l)

theorem stepTotal_apply (x : Vec Ideal S1024x1024 .f32) (acc : Vec Ideal S1024x1 .f32) (p : Fin 1024) :
    k0_pay10 (F := Ideal) x acc (ix2 p 0) = acc (ix2 p 0) + ∑ l : Fin 1024, x (ix2 p l) := by
  unfold k0_pay10
  rw [shapeCast_self, addf_apply, shapeCast_a_a1_apply]
  refine congrArg (acc (ix2 p 0) + ·) ?_
  exact laneSum_apply x _ _ p

theorem finish_apply (cn tt : Vec Ideal S1024x1 .f32) (da db : Vec Ideal S1024x512 .f32) (p : Fin 1024) (q : Fin 512) :
    k0_pay3 (F := Ideal) cn tt da db (ix2 p q)
      = Ideal.div (da (ix2 p q) + db (ix2 p q) * Ideal.div 1 (max (Ideal.sqrt (cn (ix2 p 0))) tiny))
          (tt (ix2 p 0) + cn (ix2 p 0) * Ideal.div 1 (max (Ideal.sqrt (cn (ix2 p 0))) tiny)) := by
  unfold k0_pay3
  rw [divf_apply, addf_apply, mulf_apply, broadcastTo_a1_ab_apply, broadcastTo_a1_ab_apply, addf_apply, mulf_apply,
    divf_apply, maximumf_apply, broadcast_apply, broadcast_apply]
  simp only [Ideal.ofBits_def, one_f32]
  unfold tiny
  rfl

end Cert.KernelIdeal.Steps
end
-- ==== Proof.Sums.lean ====
/-
  The four running quantities after a run's last point, element by element, as sums over the argument arrays.

  At the extended reals each point's contribution to a running quantity is a sum over its 1024 columns; a run's eight
  points have second coordinates 0 … 7, so their contributions, added from zero, are the whole row's sum taken as
  eight runs of 1024 positions.
-/
import proofs.«159643_j59227599012106_1_alg».proof.Proof.Runs
import proofs.«159643_j59227599012106_1_alg».proof.Proof.Blocks
import proofs.«159643_j59227599012106_1_alg».proof.Proof.Steps
import proofs.«159643_j59227599012106_1_alg».proof.Proof.Spec

open scoped BigOperators

noncomputable section

open Idealize.ShloMosaic Idealize.ShloMosaic.TcCoe Idealize.SL.Sem
open Idealize.ShloMosaic.ValueIdx

namespace Cert.KernelIdeal.Sums

open Cert.KernelIdeal Cert.KernelIdeal.Gen Cert.KernelIdeal.Pieces Cert.KernelIdeal.Runs Cert.KernelIdeal.Blocks
  Cert.KernelIdeal.Steps Cert.RowNorm

variable (m : (ℓ : Loc nD τ sig) → Buf (Elt Ideal) ℓ)

/-- The two argument arrays on core `c`. -/
abbrev sq (c : Dev nD) : Sq := m ((c : Thread nD τ).loc main_arg1)
abbrev tall (c : Dev nD) : Tall := m ((c : Thread nD τ).loc main_arg0)

/-! ### One point's contributions -/

def addDot (c : Dev nD) (n : ℕ) (p : Fin 1024) (q : Fin 512) : EReal :=
  if h : n < cfg0.N then ∑ l : Fin 1024, (sqAt m c n h (ix2 p l) : EReal) * (rowsAt m c n h (ix2 l q) : EReal) else 0

def addPos (c : Dev nD) (n : ℕ) (p : Fin 1024) (q : Fin 512) : EReal :=
  if h : n < cfg0.N then ∑ l : Fin 1024, pos (sqAt m c n h (ix2 p l)) * (rowsAt m c n h (ix2 l q) : EReal) else 0

def addCount (c : Dev nD) (n : ℕ) (p : Fin 1024) : EReal :=
  if h : n < cfg0.N then ∑ l : Fin 1024, pos (sqAt m c n h (ix2 p l)) else 0

def addTotal (c : Dev nD) (n : ℕ) (p : Fin 1024) : EReal :=
  if h : n < cfg0.N then ∑ l : Fin 1024, (sqAt m c n h (ix2 p l) : EReal) else 0

/-- A point's loads, read in the argument arrays: local `(p, l)` of the square block is `(P, 1024·s + l)`, local
    `(l, q)` of the rows read is `(1024·s + l, q)`, for the point `n` with `n / 8` the row block and `n % 8 = s`. -/
theorem sq_read (c : Dev nD) (n : ℕ) (hn : n < cfg0.N) (p l : Fin 1024) (P : Fin 8192) (s : Fin 8)
    (hP : P.val = 1024 * (n / 8) + p.val) (hs : n % 8 = s.val) :
    (sqAt m c n hn (ix2 p l) : EReal) = sq m c (ix2 P ⟨1024 * s.val + l.val, by omega⟩) :=
  sqBlock_apply m c ⟨n, hn⟩ p l P ⟨1024 * s.val + l.val, by omega⟩ hP (by show 1024 * s.val + l.val = 1024 * (n % 8) + l.val; rw [hs])

theorem rows_read (c : Dev nD) (n : ℕ) (hn : n < cfg0.N) (l : Fin 1024) (q : Fin 512) (s : Fin 8) (hs : n % 8 = s.val) :
    (rowsAt m c n hn (ix2 l q) : EReal) = tall m c (ix2 ⟨1024 * s.val + l.val, by omega⟩ q) := by
  have e := curRows_apply ⟨n, hn⟩ (iblk m c 1 ⟨n, hn⟩) l q ⟨1024 * s.val + l.val, by omega⟩
    (by show 1024 * s.val + l.val = 1024 * (n % 8) + l.val; rw [hs])
  refine e.trans ?_
  rw [tallBlock_eq]
  exact tall_eq m c _

/-! ### A run's last point -/

section Last

variable (c : Dev nD) (t : Fin cfg0.N) (h7 : t.val % 8 = 7)
include h7

/-- The `s`-th point of `t`'s run is below the grid's size, lies in the same row block, and has second coordinate `s`. -/
theorem run_pt (s : Fin 8) : 8 * (t.val / 8) + s.val < cfg0.N ∧ (8 * (t.val / 8) + s.val) / 8 = t.val / 8
    ∧ (8 * (t.val / 8) + s.val) % 8 = s.val := by
  have hN : t.val < 64 := lt_of_lt_of_eq t.isLt N_0
  have hs := s.isLt
  refine ⟨lt_of_lt_of_eq (by omega : 8 * (t.val / 8) + s.val < 64) N_0.symm, by omega, by omega⟩

/-- After the run's last point the first scratch holds, at local `(p, q)`, row `P` of the square argument against
    column `q` of the tall one. -/
theorem dot_last (p : Fin 1024) (q : Fin 512) (P : Fin 8192) (hP : P.val = 1024 * (t.val / 8) + p.val) :
    ((outsAt0 m c t.val t.isLt).2.1 (ix2 p q) : EReal) = dotRow (tall m c) (sq m c) P q := by
  rw [Value.soutsAt0_0_eq]
  have key : ∀ (j : ℕ) (h : 8 * (t.val / 8) + j < cfg0.N), j = 7 →
      (Pipeline.accAt (fun n h => Value.scAt0_0 m c n h (VS0_0.read (Elt Ideal) VS0_0.junk)) (Value.scAt0_0 m c)
        (8 * (t.val / 8)) j h (ix2 p q) : EReal) = dotRow (tall m c) (sq m c) P q := by
    intro j h hj; subst hj
    rw [Pipeline.accAt_add_apply (ι := S1024x512.Idx) (β := EReal) _ _ (fun _ => 0) (fun n i => addDot m c n (i 0) (i 1))
      (8 * (t.val / 8)) 7
      (fun h i => by
        obtain ⟨p', q', rfl⟩ : ∃ (p' : Fin 1024) (q' : Fin 512), i = ix2 p' q' := ⟨i 0, i 1, eq_ix2 i⟩
        show (Value.scAt0_0 m c _ h _ (ix2 p' q') : EReal) = 0 + addDot m c _ p' q'
        rw [step0, if_pos (Nat.mul_mod_right 8 _), stepDot_apply, zeroA_apply]
        unfold addDot; rw [dif_pos h])
      (fun n h acc i hlo hhi => by
        obtain ⟨p', q', rfl⟩ : ∃ (p' : Fin 1024) (q' : Fin 512), i = ix2 p' q' := ⟨i 0, i 1, eq_ix2 i⟩
        show (Value.scAt0_0 m c n h acc (ix2 p' q') : EReal) = acc (ix2 p' q') + addDot m c n p' q'
        rw [step0, if_neg (by omega), stepDot_apply]
        unfold addDot; rw [dif_pos h])
      7 le_rfl h (ix2 p q)]
    show 0 + ∑ s ∈ Finset.range 8, addDot m c (8 * (t.val / 8) + s) p q = _
    unfold dotRow byRuns
    rw [Finset.sum_range]
    refine congrArg (0 + ·) (Finset.sum_congr rfl fun s _ => ?_)
    obtain ⟨hlt, hdiv, hmod⟩ := run_pt t h7 s
    unfold addDot; rw [dif_pos hlt]
    refine Finset.sum_congr rfl fun l _ => ?_
    rw [sq_read m c _ hlt p l P s (by rw [hdiv]; exact hP) hmod, rows_read m c _ hlt l q s hmod]
  exact key _ _ h7

/-- … the second, row `P`'s indicator against column `q`. -/
theorem pos_last (p : Fin 1024) (q : Fin 512) (P : Fin 8192) (hP : P.val = 1024 * (t.val / 8) + p.val) :
    ((outsAt0 m c t.val t.isLt).2.2.1 (ix2 p q) : EReal) = dotPos (tall m c) (sq m c) P q := by
  rw [Value.soutsAt0_1_eq]
  have key : ∀ (j : ℕ) (h : 8 * (t.val / 8) + j < cfg0.N), j = 7 →
      (Pipeline.accAt (fun n h => Value.scAt0_1 m c n h (VS0_1.read (Elt Ideal) VS0_1.junk)) (Value.scAt0_1 m c)
        (8 * (t.val / 8)) j h (ix2 p q) : EReal) = dotPos (tall m c) (sq m c) P q := by
    intro j h hj; subst hj
    rw [Pipeline.accAt_add_apply (ι := S1024x512.Idx) (β := EReal) _ _ (fun _ => 0) (fun n i => addPos m c n (i 0) (i 1))
      (8 * (t.val / 8)) 7
      (fun h i => by
        obtain ⟨p', q', rfl⟩ : ∃ (p' : Fin 1024) (q' : Fin 512), i = ix2 p' q' := ⟨i 0, i 1, eq_ix2 i⟩
        show (Value.scAt0_1 m c _ h _ (ix2 p' q') : EReal) = 0 + addPos m c _ p' q'
        rw [step1, if_pos (Nat.mul_mod_right 8 _), stepPos_apply, zeroB_apply]
        unfold addPos; rw [dif_pos h])
      (fun n h acc i hlo hhi => by
        obtain ⟨p', q', rfl⟩ : ∃ (p' : Fin 1024) (q' : Fin 512), i = ix2 p' q' := ⟨i 0, i 1, eq_ix2 i⟩
        show (Value.scAt0_1 m c n h acc (ix2 p' q') : EReal) = acc (ix2 p' q') + addPos m c n p' q'
        rw [step1, if_neg (by omega), stepPos_apply]
        unfold addPos; rw [dif_pos h])
      7 le_rfl h (ix2 p q)]
    show 0 + ∑ s ∈ Finset.range 8, addPos m c (8 * (t.val / 8) + s) p q = _
    unfold dotPos byRuns
    rw [Finset.sum_range]
    refine congrArg (0 + ·) (Finset.sum_congr rfl fun s _ => ?_)
    obtain ⟨hlt, hdiv, hmod⟩ := run_pt t h7 s
    unfold addPos; rw [dif_pos hlt]
    refine Finset.sum_congr rfl fun l _ => ?_
    rw [sq_read m c _ hlt p l P s (by rw [hdiv]; exact hP) hmod, rows_read m c _ hlt l q s hmod]
  exact key _ _ h7

/-- … the third, the number of positive entries of row `P`. -/
theorem count_last (p : Fin 1024) (P : Fin 8192) (hP : P.val = 1024 * (t.val / 8) + p.val) :
    ((outsAt0 m c t.val t.isLt).2.2.2.1 (ix2 p 0) : EReal) = Cert.RowNorm.count (sq m c) P := by
  rw [Value.soutsAt0_2_eq]
  have key : ∀ (j : ℕ) (h : 8 * (t.val / 8) + j < cfg0.N), j = 7 →
      (Pipeline.accAt (fun n h => Value.scAt0_2 m c n h (VS0_2.read (Elt Ideal) VS0_2.junk)) (Value.scAt0_2 m c)
        (8 * (t.val / 8)) j h (ix2 p 0) : EReal) = Cert.RowNorm.count (sq m c) P := by
    intro j h hj; subst hj
    rw [Pipeline.accAt_add_apply (ι := S1024x1.Idx) (β := EReal) _ _ (fun _ => 0) (fun n i => addCount m c n (i 0))
      (8 * (t.val / 8)) 7
      (fun h i => by
        obtain ⟨p', z, rfl⟩ : ∃ (p' : Fin 1024) (z : Fin 1), i = ix2 p' z := ⟨i 0, i 1, eq_ix2 i⟩
        obtain rfl : z = 0 := Subsingleton.elim _ _
        show (Value.scAt0_2 m c _ h _ (ix2 p' 0) : EReal) = 0 + addCount m c _ p'
        rw [step2, if_pos (Nat.mul_mod_right 8 _), stepCount_apply, zeroC_apply]
        unfold addCount; rw [dif_pos h])
      (fun n h acc i hlo hhi => by
        obtain ⟨p', z, rfl⟩ : ∃ (p' : Fin 1024) (z : Fin 1), i = ix2 p' z := ⟨i 0, i 1, eq_ix2 i⟩
        obtain rfl : z = 0 := Subsingleton.elim _ _
        show (Value.scAt0_2 m c n h acc (ix2 p' 0) : EReal) = acc (ix2 p' 0) + addCount m c n p'
        rw [step2, if_neg (by omega), stepCount_apply]
        unfold addCount; rw [dif_pos h])
      7 le_rfl h (ix2 p 0)]
    show 0 + ∑ s ∈ Finset.range 8, addCount m c (8 * (t.val / 8) + s) p = _
    unfold Cert.RowNorm.count byRuns
    rw [Finset.sum_range]
    refine congrArg (0 + ·) (Finset.sum_congr rfl fun s _ => ?_)
    obtain ⟨hlt, hdiv, hmod⟩ := run_pt t h7 s
    unfold addCount; rw [dif_pos hlt]
    refine Finset.sum_congr rfl fun l _ => ?_
    rw [sq_read m c _ hlt p l P s (by rw [hdiv]; exact hP) hmod]
  exact key _ _ h7

/-- … the fourth, the sum of row `P`. -/
theorem total_last (p : Fin 1024) (P : Fin 8192) (hP : P.val = 1024 * (t.val / 8) + p.val) :
    ((outsAt0 m c t.val t.isLt).2.2.2.2 (ix2 p 0) : EReal) = total (sq m c) P := by
  rw [Value.soutsAt0_3_eq]
  have key : ∀ (j : ℕ) (h : 8 * (t.val / 8) + j < cfg0.N), j = 7 →
      (Pipeline.accAt (fun n h => Value.scAt0_3 m c n h (VS0_3.read (Elt Ideal) VS0_3.junk)) (Value.scAt0_3 m c)
        (8 * (t.val / 8)) j h (ix2 p 0) : EReal) = total (sq m c) P := by
    intro j h hj; subst hj
    rw [Pipeline.accAt_add_apply (ι := S1024x1.Idx) (β := EReal) _ _ (fun _ => 0) (fun n i => addTotal m c n (i 0))
      (8 * (t.val / 8)) 7
      (fun h i => by
        obtain ⟨p', z, rfl⟩ : ∃ (p' : Fin 1024) (z : Fin 1), i = ix2 p' z := ⟨i 0, i 1, eq_ix2 i⟩
        obtain rfl : z = 0 := Subsingleton.elim _ _
        show (Value.scAt0_3 m c _ h _ (ix2 p' 0) : EReal) = 0 + addTotal m c _ p'
        rw [step3, if_pos (Nat.mul_mod_right 8 _), stepTotal_apply, zeroD_apply]
        unfold addTotal; rw [dif_pos h])
      (fun n h acc i hlo hhi => by
        obtain ⟨p', z, rfl⟩ : ∃ (p' : Fin 1024) (z : Fin 1), i = ix2 p' z := ⟨i 0, i 1, eq_ix2 i⟩
        obtain rfl : z = 0 := Subsingleton.elim _ _
        show (Value.scAt0_3 m c n h acc (ix2 p' 0) : EReal) = acc (ix2 p' 0) + addTotal m c n p'
        rw [step3, if_neg (by omega), stepTotal_apply]
        unfold addTotal; rw [dif_pos h])
      7 le_rfl h (ix2 p 0)]
    show 0 + ∑ s ∈ Finset.range 8, addTotal m c (8 * (t.val / 8) + s) p = _
    unfold total byRuns
    rw [Finset.sum_range]
    refine congrArg (0 + ·) (Finset.sum_congr rfl fun s _ => ?_)
    obtain ⟨hlt, hdiv, hmod⟩ := run_pt t h7 s
    unfold addTotal; rw [dif_pos hlt]
    refine Finset.sum_congr rfl fun l _ => ?_
    rw [sq_read m c _ hlt p l P s (by rw [hdiv]; exact hP) hmod]
  exact key _ _ h7

end Last

end Cert.KernelIdeal.Sums

end
-- ==== Proof.Final.lean ====
/-
  The result array after the idealized kernel's run is `viaParts` of the two arguments.

  Only the last point of each run of eight writes its output block back: the block of 1024 rows the run belongs
  to. That block is the final quotient of the run's four sums, which at row `p` of the block and column `q` is
  `viaParts` at row `1024·(t / 8) + p`, column `q`; the eight written blocks tile the 8192 rows.
-/
import proofs.«159643_j59227599012106_1_alg».proof.Proof.Sums

open scoped BigOperators

noncomputable section

open Idealize.ShloMosaic Idealize.ShloMosaic.TcCoe Idealize.SL.Sem
open Idealize.ShloMosaic.ValueIdx
open Idealize.ShloMosaic.Pipeline (Dat)

namespace Cert.KernelIdeal.Final

open Cert.KernelIdeal Cert.KernelIdeal.Gen Cert.KernelIdeal.Runs Cert.KernelIdeal.Sums Cert.KernelIdeal.Steps Cert.RowNorm

variable (m : (ℓ : Loc nD τ sig) → Buf (Elt Ideal) ℓ) (ρ : Dev nD → PrngReg)

/-- What the result array ends holding. -/
abbrev result (c : Dev nD) : Buf (Elt Ideal) ((c : Thread nD τ).loc main_v1) := viaParts (tall m c) (sq m c)

/-- The output window's block index at point `t` is `(t / 8, 0)`. -/
theorem index2 : ∀ t : Fin cfg0.N, win0_2.index t 0 = t.val / 8 ∧ win0_2.index t 1 = 0 :=
  (by decide +kernel : ∀ t : Fin grid0.N, win0_2.index t 0 = t.val / 8 ∧ win0_2.index t 1 = 0)

/-- What a writing point writes back is its block of `result`. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  have h0 : ¬t.val % 8 = 0 := by omega
  have hN : t.val < 64 := lt_of_lt_of_eq t.isLt N_0
  have hi := index2 t
  rw [Value.flushed2, out_last m c t h0 h7]
  funext j
  obtain ⟨p, q, rfl⟩ : ∃ (p : Fin 1024) (q : Fin 512), j = ix2 p q := ⟨j 0, j 1, eq_ix2 j⟩
  have hPlt : 1024 * (t.val / 8) + p.val < 8192 := by have := p.isLt; omega
  have he : ((cfg0.win 2).blk t).view.emb (ix2 p q) = ix2 (⟨1024 * (t.val / 8) + p.val, hPlt⟩ : Fin 8192) q := by
    funext a; apply Fin.ext
    match a with
    | ⟨0, _⟩ => show win0_2.index t 0 * 1024 + 1 * p.val = 1024 * (t.val / 8) + p.val; rw [hi.1]; omega
    | ⟨1, _⟩ => show win0_2.index t 1 * 512 + 1 * q.val = q.val; rw [hi.2]; omega
  show k0_pay3 (F := Ideal) _ _ _ _ (ix2 p q) = result m c (((cfg0.win 2).blk t).view.emb (ix2 p q))
  rw [he, finish_apply, dot_last m c t h7 p q ⟨_, hPlt⟩ rfl, pos_last m c t h7 p q ⟨_, hPlt⟩ rfl,
    count_last m c t h7 p ⟨_, hPlt⟩ rfl, total_last m c t h7 p ⟨_, hPlt⟩ rfl]
  rfl

/-- An index of the array is in point `t`'s block iff each coordinate is in the block's range on its axis. -/
theorem mem_blk (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v1).slice (win0_2.rect t)).set ↔ _
  rw [View.set_slice_whole, Rect.mem_set_unit]
  exact Iff.rfl

/-- Every index lies in the block of the last point of its row block's run. -/
theorem cover (i : S8192x512.Idx) :
    ∃ t : Fin cfg0.N, (cfg0.win 2).flush t = true ∧ i ∈ ((cfg0.win 2).blk t).view.set := by
  have h0 : (i 0).val < 8192 := (i 0).isLt
  have h1 : (i 1).val < 512 := (i 1).isLt
  have hlt : 8 * ((i 0).val / 1024) + 7 < cfg0.N := lt_of_lt_of_eq (by omega : 8 * ((i 0).val / 1024) + 7 < 64) N_0.symm
  refine ⟨⟨8 * ((i 0).val / 1024) + 7, hlt⟩, (flush0_2 _).mpr (by show (8 * ((i 0).val / 1024) + 7) % 8 = 7; omega), ?_⟩
  rw [mem_blk]
  have hi := index2 ⟨8 * ((i 0).val / 1024) + 7, hlt⟩
  intro a
  match a with
  | ⟨0, _⟩ =>
    show win0_2.index _ 0 * 1024 ≤ (i 0).val ∧ (i 0).val < win0_2.index _ 0 * 1024 + 1024
    rw [hi.1]; show (8 * ((i 0).val / 1024) + 7) / 8 * 1024 ≤ (i 0).val ∧ (i 0).val < (8 * ((i 0).val / 1024) + 7) / 8 * 1024 + 1024
    omega
  | ⟨1, _⟩ =>
    show win0_2.index _ 1 * 512 ≤ (i 1).val ∧ (i 1).val < win0_2.index _ 1 * 512 + 512
    rw [hi.2]; omega

/-- So the result array ends at `result`. -/
theorem final (c : Dev nD) : (dats m 0 c).arrAt 2 cfg0.N = result m c :=
  (dats m 0 c).arrAt_eq_of_cover 2 (result m c) (flushed_eq m c) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefSide.lean ====
/-
  The reference program's result, read one element at a time, is the quotient `viaRow`: each of its intermediate
  arrays is, at an index given by coordinates, the matching piece of the specification (the indicator, the row's
  squared length, its clamped norm, the row plus its normalised indicator, the contraction, the row sum).
-/
import proofs.«159643_j59227599012106_1_alg».proof.Proof.Gen.ReferenceIdeal.Read
import proofs.«159643_j59227599012106_1_alg».proof.Proof.Spec

open scoped BigOperators

noncomputable section

namespace Cert.ReferenceIdeal.RefValue

open Cert.ReferenceIdeal Cert.ReferenceIdeal.Read Cert.RowNorm Idealize.ShloMosaic Idealize.ShloMosaic.ValueIdx

/-- The comparison "above zero", read back unsigned as a float, is the indicator of a positive entry. -/
theorem indicator (y : EReal) :
    FloatOps.uitofp (F := Ideal) .f32 (FloatOps.cmpf (F := Ideal) (φ := .f32) .ogt y 0) = pos y := by
  show (((Ideal.cmp .ogt y 0).toNat : ℝ) : EReal) = pos y
  unfold Ideal.cmp pos
  by_cases h : (0 : EReal) < y
  · simp [h]
  · simp [h]

/-- The converted comparison at an index is the indicator of the entry there. -/
theorem v2_at (x1 : (⟨S8192x8192, .f32⟩ : BufTy).Contents (Elt Ideal)) (j : S8192x8192.Idx) :
    val_main_v2 (F := Ideal) x1 j = pos (x1 j) := by
  rw [val_main_v2_apply, val_main_v1_apply, val_main_v0_apply, val_main_cst_apply, Ideal.ofBits_def,
    Ideal.ofBits_zero_f32]
  exact indicator (x1 j)

/-- The first float sum at row `p` is the squared length of the indicator row. -/
theorem v4_at (x1 : (⟨S8192x8192, .f32⟩ : BufTy).Contents (Elt Ideal)) (p : Fin 8192) :
    val_main_v4 (F := Ideal) x1 (ix1 p) = rowSq x1 p := by
  rw [val_main_v4_apply, val_main_cst_0_apply, Ideal.ofBits_def, Ideal.ofBits_zero_f32]
  unfold rowSq
  refine congrArg (0 + ·) (Finset.sum_congr rfl fun k _ => ?_)
  have e : idx_main_v4 (ix1 p) k = ix2 p k :=
    funext fun a => Fin.ext (by match a with | ⟨0, _⟩ => rfl | ⟨1, _⟩ => rfl)
  rw [val_main_v3_apply, Ideal.mulf_def, v2_at, e]

/-- The clamped square root at row `p` is the row's norm. -/
theorem v8_at (x1 : (⟨S8192x8192, .f32⟩ : BufTy).Contents (Elt Ideal)) (p : Fin 8192) (z : Fin 1) :
    val_main_v8 (F := Ideal) x1 (ix2 p z) = rowNorm x1 p := by
  have e : idx_main_v5 (ix2 p z) = ix1 p :=
    funext fun a => Fin.ext (by match a with | ⟨0, _⟩ => rfl)
  rw [val_main_v8_apply, val_main_v6_apply, val_main_v5_apply, val_main_v7_apply, val_main_cst_1_apply,
    Ideal.maximumf_def, Ideal.hostUnary_sqrt_def, Ideal.ofBits_def, e, v4_at]
  rfl

/-- The row plus its normalised indicator, at coordinates. -/
theorem v11_at (x1 : (⟨S8192x8192, .f32⟩ : BufTy).Contents (Elt Ideal)) (p k : Fin 8192) :
    val_main_v11 (F := Ideal) x1 (ix2 p k) = rowPlus x1 p k := by
  have e : idx_main_v9 (ix2 p k) = ix2 p (0 : Fin 1) :=
    funext fun a => Fin.ext (by match a with | ⟨0, _⟩ => rfl | ⟨1, _⟩ => rfl)
  rw [val_main_v11_apply, val_main_v10_apply, val_main_v9_apply, Ideal.addf_def, Ideal.hostDivf_def, v2_at, e,
    v8_at]
  rfl

/-- The contraction at coordinates. -/
theorem v12_at (x0 : (⟨S8192x512, .f32⟩ : BufTy).Contents (Elt Ideal))
    (x1 : (⟨S8192x8192, .f32⟩ : BufTy).Contents (Elt Ideal)) (p : Fin 8192) (q : Fin 512) :
    val_main_v12 (F := Ideal) x0 x1 (ix2 p q) = rowDot x0 x1 p q := by
  rw [val_main_v12_apply]
  unfold rowDot
  refine Finset.sum_congr rfl fun k _ => ?_
  have el : lidx_main_v12 (ix2 p q) k = ix2 p k :=
    funext fun a => Fin.ext (by match a with | ⟨0, _⟩ => rfl | ⟨1, _⟩ => rfl)
  have er : ridx_main_v12 (ix2 p q) k = ix2 k q :=
    funext fun a => Fin.ext (by match a with | ⟨0, _⟩ => rfl | ⟨1, _⟩ => rfl)
  rw [el, er, v11_at]

/-- The second float sum at row `p` is the sum of the row plus its normalised indicator. -/
theorem v13_at (x1 : (⟨S8192x8192, .f32⟩ : BufTy).Contents (Elt Ideal)) (p : Fin 8192) :
    val_main_v13 (F := Ideal) x1 (ix1 p) = rowTotal x1 p := by
  rw [val_main_v13_apply, val_main_cst_2_apply, Ideal.ofBits_def, Ideal.ofBits_zero_f32]
  unfold rowTotal
  refine congrArg (0 + ·) (Finset.sum_congr rfl fun k _ => ?_)
  have e : idx_main_v13 (ix1 p) k = ix2 p k :=
    funext fun a => Fin.ext (by match a with | ⟨0, _⟩ => rfl | ⟨1, _⟩ => rfl)
  rw [e, v11_at]

/-- The reference's result is the quotient of the contraction by the row sum. -/
theorem result_eq (x0 : (⟨Cert.ReferenceIdeal.S8192x512, .f32⟩ : BufTy).Contents (Elt Ideal)) (x1 : (⟨Cert.ReferenceIdeal.S8192x8192, .f32⟩ : BufTy).Contents (Elt Ideal)) :
    Cert.ReferenceIdeal.Read.val_main_v16 (F := Ideal) x0 x1 = Cert.RowNorm.viaRow x0 x1 := by
  funext i
  obtain ⟨p, q, rfl⟩ : ∃ (p : Fin 8192) (q : Fin 512), i = ix2 p q := ⟨i 0, i 1, eq_ix2 i⟩
  have e15 : idx_main_v15 (ix2 p q) = ix2 p (0 : Fin 1) :=
    funext fun a => Fin.ext (by match a with | ⟨0, _⟩ => rfl | ⟨1, _⟩ => rfl)
  have e14 : idx_main_v14 (ix2 p (0 : Fin 1)) = ix1 p :=
    funext fun a => Fin.ext (by match a with | ⟨0, _⟩ => rfl)
  rw [val_main_v16_apply, val_main_v15_apply, val_main_v14_apply, Ideal.hostDivf_def, v12_at, e15, e14, v13_at]
  rfl

end Cert.ReferenceIdeal.RefValue

end
-- ==== Proof.Finite.lean ====
/-
  Finite inputs are real-valued arrays. The precondition compares |x| with +∞ at every entry of each
  input, takes the conjunction over all entries of each input, and then the conjunction of the two results.
  Read at extended reals: |x| = max x (-x) < ⊤ holds exactly when x is neither ⊤ nor ⊥, and an extended
  real that is neither is the image of a real number.
-/
import proofs.«159643_j59227599012106_1_alg».proof.Pre_finite_inputs
import Idealize.ShloMosaic.PureOps.Ideal
import Idealize.ShloMosaic.Lib.ReduceAll
import Idealize.ShloMosaic.Lib.ValueIdx
import Mathlib.Data.EReal.Basic

noncomputable section

namespace Cert.Pre_finite_inputs.Reals

open Idealize.ShloMosaic

/-- The binary32 pattern with sign clear, exponent all ones and fraction zero denotes `⊤`. -/
theorem ofBits_inf : Ideal.ofBits .f32 0x7F800000#32 = (⊤ : EReal) := by
  simp [Ideal.ofBits, Ideal.ieee]

/-- `|x| < +∞` at an extended real: `x` is neither infinity. From `max x (-x) < ⊤` both `x < ⊤` and
    `-x < ⊤`; the second fails at `x = ⊥`, where `-x = ⊤`. -/
theorem ne_of_abs_lt (x : EReal)
    (h : Ideal.cmp .olt (max x (-x)) (Ideal.ofBits .f32 0x7F800000#32) = 1#1) : x ≠ ⊤ ∧ x ≠ ⊥ := by
  rw [ofBits_inf] at h
  have hlt : max x (-x) < ⊤ := by
    by_contra hc
    simp [Ideal.cmp, hc] at h
  rw [max_lt_iff] at hlt
  refine ⟨ne_of_lt hlt.1, ?_⟩
  rintro rfl
  simp at hlt

/-- An array of extended reals none of which is an infinity is the image of an array of reals:
    the witness is the entrywise real part. -/
theorem reals_of_all {s : Shape} (x : FVec Ideal s .f32)
    (h : ∀ i, x i ≠ ⊤ ∧ x i ≠ ⊥) : ∃ xr : s.Idx → ℝ, x = fun i => ((xr i : ℝ) : EReal) :=
  ⟨fun i => (x i).toReal, funext fun i => (EReal.coe_toReal (h i).1 (h i).2).symm⟩

/-- The scalar shape has one index: there is no axis to disagree on. -/
instance : Subsingleton S_.Idx := ⟨fun a b => funext fun d => d.elim0⟩

/-- The precondition, true: both inputs are arrays of reals. Its value at the one scalar index is a
    conjunction of two conjunctions over all entries; each gives `|x i| < +∞` at every index `i`. -/
theorem reals_of_fn [Cert.Pre_finite_inputs.Facts] (x0 : FVec Ideal Cert.Pre_finite_inputs.S8192x512 .f32) (x1 : FVec Ideal Cert.Pre_finite_inputs.S8192x8192 .f32)
    (h : Cert.Pre_finite_inputs.fn (F := Ideal) x0 x1 = fun _ => 1#1) :
    (∃ xr : Cert.Pre_finite_inputs.S8192x512.Idx → ℝ, x0 = fun i => ((xr i : ℝ) : EReal)) ∧
    (∃ ar : Cert.Pre_finite_inputs.S8192x8192.Idx → ℝ, x1 = fun i => ((ar i : ℝ) : EReal)) := by
  have h0 := congrFun h ValueIdx.ix0
  dsimp only [fn] at h0
  obtain ⟨ha, hb⟩ := IntOp.andi_eq_one.1 h0
  have e0 : ∀ i, x0 i ≠ ⊤ ∧ x0 i ≠ ⊥ := fun i =>
    ne_of_abs_lt (x0 i) (Host.reduce_andi_all _ _ _ _ _ ha i)
  have e1 : ∀ i, x1 i ≠ ⊤ ∧ x1 i ≠ ⊥ := fun i =>
    ne_of_abs_lt (x1 i) (Host.reduce_andi_all _ _ _ _ _ hb i)
  exact ⟨reals_of_all x0 e0, reals_of_all x1 e1⟩

end Cert.Pre_finite_inputs.Reals

end
-- ==== Proof.Algebra.lean ====
/-
  The two spellings of the result agree when both argument arrays have real entries.

  With real entries every sum in sight is a real. An indicator is its own square, so the squared length of a
  row's indicator row is the number of the row's positive entries, a nonnegative real, and the two spellings
  clamp the same square root by the same positive constant: one nonzero real norm. Dividing by a nonzero real
  is multiplying by its reciprocal, so the numerators agree because a contraction is additive and homogeneous
  in the row, and the denominators agree because a sum is. Equal numerators over equal denominators are equal
  quotients; the last division is never evaluated.
-/
import proofs.«159643_j59227599012106_1_alg».proof.Proof.Spec

open scoped BigOperators

noncomputable section

namespace Cert.RowNorm

open Idealize.ShloMosaic Idealize.ShloMosaic.ValueIdx

namespace Algebra

/-! ### The clamp is a positive real -/

/-- The clamp denotes a positive real. -/
theorem tiny_pos : ∃ e : ℝ, 0 < e ∧ tiny = ((e : ℝ) : EReal) := by
  unfold tiny
  simp [Ideal.ofBits, Ideal.ieee, -EReal.coe_mul]

/-- The clamp, as a real. -/
def tinyR : ℝ := EReal.toReal tiny

theorem tiny_eq : tiny = ((tinyR : ℝ) : EReal) := by
  obtain ⟨e, _, h⟩ := tiny_pos
  rw [tinyR, h, EReal.toReal_coe]

theorem tinyR_pos : 0 < tinyR := by
  obtain ⟨e, he, h⟩ := tiny_pos
  rw [tinyR, h, EReal.toReal_coe]
  exact he

/-- The larger of two reals, read as an extended real, is the larger of the two readings. -/
theorem coe_max (u v : ℝ) : max ((u : ℝ) : EReal) ((v : ℝ) : EReal) = ((max u v : ℝ) : EReal) :=
  (EReal.coe_strictMono.monotone.map_max).symm

/-! ### Sums by runs of real entries -/

/-- A sum by runs of reals is the real sum. -/
theorem byRuns_coe (f : Fin 8192 → ℝ) :
    byRuns (fun k => ((f k : ℝ) : EReal)) = ((∑ k, f k : ℝ) : EReal) := by
  unfold byRuns
  rw [zero_add, ← coe_sum]
  exact (sum_cut (fun k => ((f k : ℝ) : EReal))).symm

section Real

variable (xr : (⟨2, ![8192, 512]⟩ : Shape).Idx → ℝ) (ar : (⟨2, ![8192, 8192]⟩ : Shape).Idx → ℝ)

/-- The number of positive entries of row `p`, as a real. -/
def cnt (p : Fin 8192) : ℝ := ∑ k : Fin 8192, posR (ar (ix2 p k))

theorem cnt_nonneg (p : Fin 8192) : 0 ≤ cnt ar p :=
  Finset.sum_nonneg fun k _ => posR_nonneg (ar (ix2 p k))

/-- The clamped norm of row `p`, as a real. -/
def nrm (p : Fin 8192) : ℝ := max (Real.sqrt (cnt ar p)) tinyR

theorem nrm_pos (p : Fin 8192) : 0 < nrm ar p :=
  lt_of_lt_of_le tinyR_pos (le_max_right _ _)

theorem nrm_ne (p : Fin 8192) : nrm ar p ≠ 0 := (nrm_pos ar p).ne'

/-- The count of positive entries, taken by runs. -/
theorem count_coe (p : Fin 8192) :
    count (fun i => ((ar i : ℝ) : EReal)) p = ((cnt ar p : ℝ) : EReal) := by
  unfold count cnt
  simp only [pos_coe]
  exact byRuns_coe fun k => posR (ar (ix2 p k))

/-- The squared length of the indicator row is the same count. -/
theorem rowSq_coe (p : Fin 8192) :
    rowSq (fun i => ((ar i : ℝ) : EReal)) p = ((cnt ar p : ℝ) : EReal) := by
  unfold rowSq cnt
  simp only [pos_coe, ← EReal.coe_mul, posR_mul_self]
  rw [zero_add, coe_sum]

/-- The square root of a count, clamped. -/
theorem clamp_coe (p : Fin 8192) :
    max (Ideal.sqrt ((cnt ar p : ℝ) : EReal)) tiny = ((nrm ar p : ℝ) : EReal) := by
  rw [Ideal.sqrt_coe, if_neg (not_lt.mpr (cnt_nonneg ar p)), tiny_eq, coe_max]
  rfl

theorem rowNorm_coe (p : Fin 8192) :
    rowNorm (fun i => ((ar i : ℝ) : EReal)) p = ((nrm ar p : ℝ) : EReal) := by
  unfold rowNorm
  rw [rowSq_coe, clamp_coe]

theorem invNorm_coe (p : Fin 8192) :
    invNorm (fun i => ((ar i : ℝ) : EReal)) p = ((1 / nrm ar p : ℝ) : EReal) := by
  unfold invNorm
  rw [count_coe, clamp_coe, Ideal.div_coe (nrm_ne ar p), one_mul]

/-- An entry of row `p` plus its normalised indicator, as a real. -/
theorem rowPlus_coe (p k : Fin 8192) :
    rowPlus (fun i => ((ar i : ℝ) : EReal)) p k
      = ((ar (ix2 p k) + posR (ar (ix2 p k)) * (1 / nrm ar p) : ℝ) : EReal) := by
  unfold rowPlus
  rw [rowNorm_coe, Ideal.div_coe (nrm_ne ar p)]
  simp only [pos_coe]
  rw [← EReal.coe_mul, ← EReal.coe_add]

/-! ### Numerators -/

theorem rowDot_coe (p : Fin 8192) (q : Fin 512) :
    rowDot (fun i => ((xr i : ℝ) : EReal)) (fun i => ((ar i : ℝ) : EReal)) p q
      = (((∑ k : Fin 8192, ar (ix2 p k) * xr (ix2 k q))
          + (∑ k : Fin 8192, posR (ar (ix2 p k)) * xr (ix2 k q)) * (1 / nrm ar p) : ℝ) : EReal) := by
  unfold rowDot
  simp only [rowPlus_coe, ← EReal.coe_mul]
  rw [coe_sum, contract_add_scaled]

theorem dotRow_coe (p : Fin 8192) (q : Fin 512) :
    dotRow (fun i => ((xr i : ℝ) : EReal)) (fun i => ((ar i : ℝ) : EReal)) p q
      = ((∑ k : Fin 8192, ar (ix2 p k) * xr (ix2 k q) : ℝ) : EReal) := by
  unfold dotRow
  simp only [← EReal.coe_mul]
  exact byRuns_coe fun k => ar (ix2 p k) * xr (ix2 k q)

theorem dotPos_coe (p : Fin 8192) (q : Fin 512) :
    dotPos (fun i => ((xr i : ℝ) : EReal)) (fun i => ((ar i : ℝ) : EReal)) p q
      = ((∑ k : Fin 8192, posR (ar (ix2 p k)) * xr (ix2 k q) : ℝ) : EReal) := by
  unfold dotPos
  simp only [pos_coe, ← EReal.coe_mul]
  exact byRuns_coe fun k => posR (ar (ix2 p k)) * xr (ix2 k q)

theorem num_eq (p : Fin 8192) (q : Fin 512) :
    dotRow (fun i => ((xr i : ℝ) : EReal)) (fun i => ((ar i : ℝ) : EReal)) p q
        + dotPos (fun i => ((xr i : ℝ) : EReal)) (fun i => ((ar i : ℝ) : EReal)) p q
          * invNorm (fun i => ((ar i : ℝ) : EReal)) p
      = rowDot (fun i => ((xr i : ℝ) : EReal)) (fun i => ((ar i : ℝ) : EReal)) p q := by
  rw [dotRow_coe, dotPos_coe, invNorm_coe, rowDot_coe, ← EReal.coe_mul, ← EReal.coe_add]

/-! ### Denominators -/

theorem rowTotal_coe (p : Fin 8192) :
    rowTotal (fun i => ((ar i : ℝ) : EReal)) p
      = (((∑ k : Fin 8192, ar (ix2 p k)) + cnt ar p * (1 / nrm ar p) : ℝ) : EReal) := by
  unfold rowTotal cnt
  simp only [rowPlus_coe]
  rw [zero_add, coe_sum, sum_add_scaled]

theorem total_coe (p : Fin 8192) :
    total (fun i => ((ar i : ℝ) : EReal)) p = ((∑ k : Fin 8192, ar (ix2 p k) : ℝ) : EReal) := by
  unfold total
  exact byRuns_coe fun k => ar (ix2 p k)

theorem den_eq (p : Fin 8192) :
    total (fun i => ((ar i : ℝ) : EReal)) p
        + count (fun i => ((ar i : ℝ) : EReal)) p * invNorm (fun i => ((ar i : ℝ) : EReal)) p
      = rowTotal (fun i => ((ar i : ℝ) : EReal)) p := by
  rw [total_coe, count_coe, invNorm_coe, rowTotal_coe, ← EReal.coe_mul, ← EReal.coe_add]

end Real

end Algebra

/-! ### The two spellings agree -/

theorem viaParts_eq_viaRow (xr : (⟨2, ![8192, 512]⟩ : Shape).Idx → ℝ) (ar : (⟨2, ![8192, 8192]⟩ : Shape).Idx → ℝ) :
    viaParts (fun i => ((xr i : ℝ) : EReal)) (fun i => ((ar i : ℝ) : EReal))
      = viaRow (fun i => ((xr i : ℝ) : EReal)) (fun i => ((ar i : ℝ) : EReal)) := by
  funext i
  exact congrArg₂ Ideal.div (Algebra.num_eq xr ar (i 0) (i 1)) (Algebra.den_eq ar (i 0))

end Cert.RowNorm

end
-- ==== Proof.lean ====
/-
  The certificate of one kernel against its reference, over the extended reals.

  The kernel walks the 8192 × 8192 argument `a` in 1024 × 1024 blocks. For each block of 1024 rows it keeps four
  running sums over the eight column blocks — the rows against the 8192 × 512 argument `x`, the rows'
  positive-entry indicator against `x`, the number of positive entries per row, the row sums — and after the last
  column block stores `(a·x + (ind·x)/ν) / (Σa + n/ν)`, `ν` the row's norm `max (√n) ε`. The reference adds the
  normalised indicator `ind/ν` to `a` first, takes one whole product with `x`, and divides by the row sums of the
  same matrix. Over the extended reals a change of float format is the identity, so the two differ only by the
  order of the additions and by where the factor `1/ν` is applied; with every input entry finite all sums are
  real and the two agree by distributivity (`Cert.RowNorm.viaParts_eq_viaRow`), which is where the precondition
  is used. The ideal pass rewrote nothing, so the idealized kernel is the kernel's own text.
-/
import proofs.«159643_j59227599012106_1_alg».proof.Defs
import proofs.«159643_j59227599012106_1_alg».proof.Proof.Gen.Kernel
import proofs.«159643_j59227599012106_1_alg».proof.Proof.Gen.Kernel.Skeleton
import proofs.«159643_j59227599012106_1_alg».proof.Proof.Gen.Kernel.Launch
import proofs.«159643_j59227599012106_1_alg».proof.Proof.Gen.Kernel.Points
import proofs.«159643_j59227599012106_1_alg».proof.Proof.Gen.Kernel.Frame
import proofs.«159643_j59227599012106_1_alg».proof.Proof.Gen.KernelIdeal
import proofs.«159643_j59227599012106_1_alg».proof.Proof.Gen.KernelIdeal.Skeleton
import proofs.«159643_j59227599012106_1_alg».proof.Proof.Gen.KernelIdeal.Launch
import proofs.«159643_j59227599012106_1_alg».proof.Proof.Gen.KernelIdeal.Points
import proofs.«159643_j59227599012106_1_alg».proof.Proof.Gen.KernelIdeal.Frame
import proofs.«159643_j59227599012106_1_alg».proof.Proof.Gen.ReferenceIdeal
import proofs.«159643_j59227599012106_1_alg».proof.Proof.Gen.Pre_finite_inputs
import proofs.«159643_j59227599012106_1_alg».proof.Proof.Gen.KernelIdeal.Value
import proofs.«159643_j59227599012106_1_alg».proof.Proof.Gen.ReferenceIdeal.Run
import proofs.«159643_j59227599012106_1_alg».proof.Proof.Gen.ReferenceIdeal.Read
import proofs.«159643_j59227599012106_1_alg».proof.Proof.Final
import proofs.«159643_j59227599012106_1_alg».proof.Proof.RefSide
import proofs.«159643_j59227599012106_1_alg».proof.Proof.Finite
import proofs.«159643_j59227599012106_1_alg».proof.Proof.Algebra
import Idealize.ShloMosaic.Adequacy
import Idealize.ShloMosaic.Init

noncomputable section

namespace Cert.Proof

open Idealize.ShloMosaic Idealize.SL.Sem

/-- The kernel at the word level runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel ends at `viaParts` of the arguments, the reference at `viaRow` of arguments that agree; every
    entry being a real, the two are one function. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq]
  rw [(hagree c).1, (hagree c).2]
  obtain ⟨⟨xr, hx⟩, ⟨ar, ha⟩⟩ := Cert.Pre_finite_inputs.Reals.reals_of_fn
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (hpre c)
  -- both spellings at arrays of reals
  have key : ∀ (x0 : Cert.RowNorm.Tall) (x1 : Cert.RowNorm.Sq), x0 = (fun i => ((xr i : ℝ) : EReal)) →
      x1 = (fun i => ((ar i : ℝ) : EReal)) → Cert.RowNorm.viaRow x0 x1 = Cert.RowNorm.viaParts x0 x1 := by
    intro x0 x1 h0 h1; subst h0; subst h1
    exact (Cert.RowNorm.viaParts_eq_viaRow xr ar).symm
  exact key _ _ hx ha

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
